-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x16 : Shape := ⟨3, ![1024, 256, 16]⟩
abbrev S256x16x64 : Shape := ⟨3, ![256, 16, 64]⟩
abbrev S256x16 : Shape := ⟨2, ![256, 16]⟩
abbrev S_ : Shape := ⟨0, ![]⟩

class Facts : Prop where
  bcast_S_S1024x256x16 : S_.BroadcastsInDim S1024x256x16 (![] : Fin 0 → Fin S1024x256x16.rank)
  reducesTo_S1024x256x16_S_d0_1_2 : S1024x256x16.ReducesTo [0, 1, 2] S_
  h_S_ : 0 < S_.numel
  bcast_S_S256x16x64 : S_.BroadcastsInDim S256x16x64 (![] : Fin 0 → Fin S256x16x64.rank)
  reducesTo_S256x16x64_S_d0_1_2 : S256x16x64.ReducesTo [0, 1, 2] S_
  bcast_S_S256x16 : S_.BroadcastsInDim S256x16 (![] : Fin 0 → Fin S256x16.rank)
  reducesTo_S256x16_S_d0_1 : S256x16.ReducesTo [0, 1] S_

variable [Facts]

def fn_part1 {F : FTy → Type} [FloatOps F] (main_v13 : IVec S_ 1) (main_v16 : IVec S256x16x64 1) : IVec S_ 1 :=
  let main_c_5 : IVec S_ 1 := constantI S_ 1 1#1
  let main_v17 : IVec S_ 1 := (fun x v => Host.reduce IntOp.andi x v reducesTo_S256x16x64_S_d0_1_2 h_S_) main_v16 main_c_5
  let main_v18 : IVec S_ 1 := andi main_v13 main_v17
  main_v18

def fn {F : FTy → Type} [FloatOps F] (main_arg0 : FVec F S1024x256x16 .f32) (main_arg1 : FVec F S256x16x64 .f32) (main_arg2 : FVec F S256x16 .f32) (main_arg3 : FVec F S256x16x64 .f32) : IVec S_ 1 :=
  let main_v0 : FVec F S1024x256x16 .f32 := Host.absf main_arg0
  let main_cst : FVec F S_ .f32 := constant S_ .f32 0x7F800000#32
  let main_v1 : FVec F S1024x256x16 .f32 := broadcastInDim S1024x256x16 ![] bcast_S_S1024x256x16 main_cst
  let main_v2 : IVec S1024x256x16 1 := cmpf .olt main_v0 main_v1
  let main_c : IVec S_ 1 := constantI S_ 1 1#1
  let main_v3 : IVec S_ 1 := (fun x v => Host.reduce IntOp.andi x v reducesTo_S1024x256x16_S_d0_1_2 h_S_) main_v2 main_c
  let main_v4 : FVec F S256x16x64 .f32 := Host.absf main_arg1
  let main_cst_0 : FVec F S_ .f32 := constant S_ .f32 0x7F800000#32
  let main_v5 : FVec F S256x16x64 .f32 := broadcastInDim S256x16x64 ![] bcast_S_S256x16x64 main_cst_0
  let main_v6 : IVec S256x16x64 1 := cmpf .olt main_v4 main_v5
  let main_c_1 : IVec S_ 1 := constantI S_ 1 1#1
  let main_v7 : IVec S_ 1 := (fun x v => Host.reduce IntOp.andi x v reducesTo_S256x16x64_S_d0_1_2 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  let main_v14 : FVec F S256x16x64 .f32 := Host.absf main_arg3
  let main_cst_4 : FVec F S_ .f32 := constant S_ .f32 0x7F800000#32
  let main_v15 : FVec F S256x16x64 .f32 := broadcastInDim S256x16x64 ![] bcast_S_S256x16x64 main_cst_4
  let main_v16 : IVec S256x16x64 1 := cmpf .olt main_v14 main_v15
  fn_part1 (F := F) main_v13 main_v16
-- ==== Kernel.lean ====
abbrev S1024x256x16 : Shape := ⟨3, ![1024, 256, 16]⟩
abbrev S256x16x64 : Shape := ⟨3, ![256, 16, 64]⟩
abbrev S256x16 : Shape := ⟨2, ![256, 16]⟩
abbrev S128x8x16 : Shape := ⟨3, ![128, 8, 16]⟩
abbrev S8x16x64 : Shape := ⟨3, ![8, 16, 64]⟩
abbrev S8x16 : Shape := ⟨2, ![8, 16]⟩
abbrev S128x8x16x1 : Shape := ⟨4, ![128, 8, 16, 1]⟩
abbrev S1x8x16x64 : Shape := ⟨4, ![1, 8, 16, 64]⟩
abbrev S128x8x16x64 : Shape := ⟨4, ![128, 8, 16, 64]⟩
abbrev S1x8x16x1 : Shape := ⟨4, ![1, 8, 16, 1]⟩
abbrev S8x16x1 : Shape := ⟨3, ![8, 16, 1]⟩
abbrev S_ : Shape := ⟨0, ![]⟩
abbrev S16 : Shape := ⟨1, ![16]⟩

abbrev nBuf : Space → Nat
  | .hbm => 16
  | .vmem => 11
  | .smem => 0
  | _ => 0

abbrev bufTy : (tb : Table) → Fin (tcTables nBuf tb) → BufTy
  | .hbm, ⟨0, _⟩ => ⟨S1024x256x16, .f32⟩
  | .hbm, ⟨1, _⟩ => ⟨S256x16x64, .f32⟩
  | .hbm, ⟨2, _⟩ => ⟨S256x16, .f32⟩
  | .hbm, ⟨3, _⟩ => ⟨S256x16x64, .f32⟩
  | .hbm, ⟨4, _⟩ => ⟨S256x16, .f32⟩
  | .hbm, ⟨5, _⟩ => ⟨S_, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S128x8x16, .f32⟩
  | .local _ .vmem, ⟨1, _⟩ => ⟨S128x8x16, .f32⟩
  | .local _ .vmem, ⟨2, _⟩ => ⟨S8x16x64, .f32⟩
  | .local _ .vmem, ⟨3, _⟩ => ⟨S8x16x64, .f32⟩
  | .local _ .vmem, ⟨4, _⟩ => ⟨S8x16, .f32⟩
  | .local _ .vmem, ⟨5, _⟩ => ⟨S8x16, .f32⟩
  | .local _ .vmem, ⟨6, _⟩ => ⟨S8x16x64, .f32⟩
  | .local _ .vmem, ⟨7, _⟩ => ⟨S8x16x64, .f32⟩
  | .local _ .vmem, ⟨8, _⟩ => ⟨S8x16, .f32⟩
  | .local _ .vmem, ⟨9, _⟩ => ⟨S8x16, .f32⟩
  | .local _ .vmem, ⟨10, _⟩ => ⟨S8x16x64, .f32⟩
  | _, _ => ⟨S1024x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_15 : BitVec 32 := 0#32
  let v27 : BitVec 1 := Scalar.cmpi .ne v26 c0_i32_15
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x8x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x16x64_S8x16x64_0_0_0 : ∀ a, (![0, 0, 0] : Fin 3 → Nat) a + S8x16x64.size a ≤ S8x16x64.size a
  h_S8x16x64 : 0 < S8x16x64.numel
  shapeCasts_S8x16x64_S8x16x64 : S8x16x64.ShapeCasts S8x16x64
  inb_S128x8x16_S128x8x16_0_0_0 : ∀ a, (![0, 0, 0] : Fin 3 → Nat) a + S128x8x16.size a ≤ S128x8x16.size a
  h_S128x8x16 : 0 < S128x8x16.numel
  inb_S8x16_S8x16_0_0 : ∀ a, (![0, 0] : Fin 2 → Nat) a + S8x16.size a ≤ S8x16.size a
  h_S8x16 : 0 < S8x16.numel
  shapeCasts_S128x8x16_S128x8x16x1 : S128x8x16.ShapeCasts S128x8x16x1
  shapeCasts_S8x16x64_S1x8x16x64 : S8x16x64.ShapeCasts S1x8x16x64
  broadcasts_S128x8x16x1_S128x8x16x64 : S128x8x16x1.Broadcasts S128x8x16x64
  broadcasts_S1x8x16x64_S128x8x16x64 : S1x8x16x64.Broadcasts S128x8x16x64
  shapeCasts_S8x16_S1x8x16x1 : S8x16.ShapeCasts S1x8x16x1
  broadcasts_S1x8x16x1_S128x8x16x64 : S1x8x16x1.Broadcasts S128x8x16x64
  natLt_1_32 : 1 < 32
  reduces_S128x8x16x64_S8x16x64 : S128x8x16x64.Reduces [0] S8x16x64
  shapeCasts_S8x16_S8x16x1 : S8x16.ShapeCasts S8x16x1
  broadcasts_S8x16x1_S8x16x64 : S8x16x1.Broadcasts S8x16x64
  reduces_S8x16x64_S8x16 : S8x16x64.Reduces [2] S8x16
  reducesTo_S256x16_S16_d0 : S256x16.ReducesTo [0] S16
  h_S_ : 0 < S_.numel
  bcast_S_S16 : S_.BroadcastsInDim S16 (![] : Fin 0 → Fin S16.rank)
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8x16.size a ≤ S1024x256x16.size a
  hwx0_0 : ∀ i : grid0.Coords, EltTy.bits .f32 = 32 ∨ (Rect.block (s := S1024x256x16) S128x8x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16x64.size a ≤ S256x16x64.size a
  hwx0_1 : ∀ i : grid0.Coords, EltTy.bits .f32 = 32 ∨ (Rect.block (s := S256x16x64) S8x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16.size a ≤ S256x16.size a
  hwx0_2 : ∀ i : grid0.Coords, EltTy.bits .f32 = 32 ∨ (Rect.block (s := S256x16) S8x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16x64.size a ≤ S256x16x64.size a
  hwx0_3 : ∀ i : grid0.Coords, EltTy.bits .f32 = 32 ∨ (Rect.block (s := S256x16x64) S8x16x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x16.size a ≤ S256x16.size a
  hwx0_4 : ∀ i : grid0.Coords, EltTy.bits .f32 = 32 ∨ (Rect.block (s := S256x16) S8x16.size (cc0_transform_4 i) (hinb0_4 i)).WholeWords (EltTy.packing .f32)

variable [Facts₀]

abbrev win0_0 : Pipeline.Window sig grid0 :=
  Pipeline.Window.ofSpec (Memref.whole main_arg0) S128x8x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x16x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x256x16 : Shape := ⟨3, ![1024, 256, 16]⟩
abbrev S256x16x64 : Shape := ⟨3, ![256, 16, 64]⟩
abbrev S256x16 : Shape := ⟨2, ![256, 16]⟩
abbrev S1024x256x16x1 : Shape := ⟨4, ![1024, 256, 16, 1]⟩
abbrev S1x256x16x64 : Shape := ⟨4, ![1, 256, 16, 64]⟩
abbrev S1024x256x16x64 : Shape := ⟨4, ![1024, 256, 16, 64]⟩
abbrev S1x256x16x1 : Shape := ⟨4, ![1, 256, 16, 1]⟩
abbrev S_ : Shape := ⟨0, ![]⟩
abbrev S256x16x1 : Shape := ⟨3, ![256, 16, 1]⟩
abbrev S16 : Shape := ⟨1, ![16]⟩

abbrev nBuf : Space → Nat
  | .hbm => 43
  | .vmem => 0
  | .smem => 0
  | _ => 0

abbrev bufTy : (tb : Table) → Fin (tcTables nBuf tb) → BufTy
  | .hbm, ⟨0, _⟩ => ⟨S1024x256x16, .f32⟩
  | .hbm, ⟨1, _⟩ => ⟨S256x16x64, .f32⟩
  | .hbm, ⟨2, _⟩ => ⟨S256x16, .f32⟩
  | .hbm, ⟨3, _⟩ => ⟨S256x16x64, .f32⟩
  | .hbm, ⟨4, _⟩ => ⟨S1024x256x16x1, .f32⟩
  | .hbm, ⟨5, _⟩ => ⟨S1x256x16x64, .f32⟩
  | .hbm, ⟨6, _⟩ => ⟨S1024x256x16x64, .f32⟩
  | .hbm, ⟨7, _⟩ => ⟨S1024x256x16x64, .f32⟩
  | .hbm, ⟨8, _⟩ => ⟨S1024x256x16x64, .f32⟩
  | .hbm, ⟨9, _⟩ => ⟨S1024x256x16x64, .f32⟩
  | .hbm, ⟨10, _⟩ => ⟨S1x256x16x1, .f32⟩
  | .hbm, ⟨11, _⟩ => ⟨S_, .f32⟩
  | .hbm, ⟨12, _⟩ => ⟨S1x256x16x1, .f32⟩
  | .hbm, ⟨13, _⟩ => ⟨S1x256x16x1, .f32⟩
  | .hbm, ⟨14, _⟩ => ⟨S1024x256x16x64, .f32⟩
  | .hbm, ⟨15, _⟩ => ⟨S1024x256x16x64, .i1⟩
  | .hbm, ⟨16, _⟩ => ⟨S1024x256x16x64, .f32⟩
  | .hbm, ⟨17, _⟩ => ⟨S_, .f32⟩
  | .hbm, ⟨18, _⟩ => ⟨S256x16x64, .f32⟩
  | .hbm, ⟨19, _⟩ => ⟨S_, .f32⟩
  | .hbm, ⟨20, _⟩ => ⟨S256x16x64, .f32⟩
  | .hbm, ⟨21, _⟩ => ⟨S256x16x64, .f32⟩
  | .hbm, ⟨22, _⟩ => ⟨S256x16x1, .f32⟩
  | .hbm, ⟨23, _⟩ => ⟨S256x16x64, .f32⟩
  | .hbm, ⟨24, _⟩ => ⟨S256x16x64, .f32⟩
  | .hbm, ⟨25, _⟩ => ⟨S256x16x64, .f32⟩
  | .hbm, ⟨26, _⟩ => ⟨S256x16x64, .f32⟩
  | .hbm, ⟨27, _⟩ => ⟨S_, .f32⟩
  | .hbm, ⟨28, _⟩ => ⟨S256x16, .f32⟩
  | .hbm, ⟨29, _⟩ => ⟨S_, .f32⟩
  | .hbm, ⟨30, _⟩ => ⟨S256x16, .f32⟩
  | .hbm, ⟨31, _⟩ => ⟨S256x16, .f32⟩
  | .hbm, ⟨32, _⟩ => ⟨S_, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S1024x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1024x256x16_S1024x256x16x1_0_1_2 : S1024x256x16.BroadcastsInDim S1024x256x16x1 (![0, 1, 2] : Fin 3 → Fin S1024x256x16x1.rank)
  bcast_S256x16x64_S1x256x16x64_1_2_3 : S256x16x64.BroadcastsInDim S1x256x16x64 (![1, 2, 3] : Fin 3 → Fin S1x256x16x64.rank)
  bcast_S1024x256x16x1_S1024x256x16x64_0_1_2_3 : S1024x256x16x1.BroadcastsInDim S1024x256x16x64 (![0, 1, 2, 3] : Fin 4 → Fin S1024x256x16x64.rank)
  bcast_S1x256x16x64_S1024x256x16x64_0_1_2_3 : S1x256x16x64.BroadcastsInDim S1024x256x16x64 (![0, 1, 2, 3] : Fin 4 → Fin S1024x256x16x64.rank)
  bcast_S256x16_S1x256x16x1_1_2 : S256x16.BroadcastsInDim S1x256x16x1 (![1, 2] : Fin 2 → Fin S1x256x16x1.rank)
  bcast_S_S1x256x16x1 : S_.BroadcastsInDim S1x256x16x1 (![] : Fin 0 → Fin S1x256x16x1.rank)
  bcast_S1x256x16x1_S1024x256x16x64_0_1_2_3 : S1x256x16x1.BroadcastsInDim S1024x256x16x64 (![0, 1, 2, 3] : Fin 4 → Fin S1024x256x16x64.rank)
  reducesTo_S1024x256x16x64_S256x16x64_d0 : S1024x256x16x64.ReducesTo [0] S256x16x64
  h_S_ : 0 < S_.numel
  bcast_S_S256x16x64 : S_.BroadcastsInDim S256x16x64 (![] : Fin 0 → Fin S256x16x64.rank)
  bcast_S256x16_S256x16x1_0_1 : S256x16.BroadcastsInDim S256x16x1 (![0, 1] : Fin 2 → Fin S256x16x1.rank)
  bcast_S256x16x1_S256x16x64_0_1_2 : S256x16x1.BroadcastsInDim S256x16x64 (![0, 1, 2] : Fin 3 → Fin S256x16x64.rank)
  reducesTo_S256x16x64_S256x16_d2 : S256x16x64.ReducesTo [2] S256x16
  bcast_S_S256x16 : S_.BroadcastsInDim S256x16 (![] : Fin 0 → Fin S256x16.rank)
  reducesTo_S256x16_S16_d0 : S256x16.ReducesTo [0] S16
  bcast_S_S16 : S_.BroadcastsInDim S16 (![] : Fin 0 → Fin S16.rank)
  reducesTo_S16_S_d0 : S16.ReducesTo [0] S_

variable [Facts₀]

class Facts : Prop extends Facts₀ where

variable [Facts]
-- ==== Proof.BinLoss.lean ====
/-
  The histogram-density loss, one element at a time over the extended reals.

  For a channel (t, c) and a bin k, a sample a = x[b, t, c] counts when |a - loc[t, c, k]| < delta[t, c] * 0.5; the
  count over the 1024 samples, divided by 1024 and by delta[t, c], is compared with densities[t, c, k], and the
  channel's loss is the mean over the 64 bins of the absolute difference. The comparison bit becomes the number 0 or 1;
  read unsigned as it stands, or widened to 32 bits and read signed, it is the same number.

  A sum over the 1024 samples is the sum over eight consecutive runs of 128 of the sums inside each run: addition of
  extended reals is commutative and associative, so no finiteness is needed.
-/
import Idealize.ShloMosaic.Lib.ValueIdx
import Idealize.ShloMosaic.PureOps.Ideal.Laws

noncomputable section

namespace Cert.BinLoss

open Idealize.ShloMosaic Idealize.ShloMosaic.ValueIdx

abbrev SX : Shape := ⟨3, ![1024, 256, 16]⟩
abbrev SL : Shape := ⟨3, ![256, 16, 64]⟩
abbrev SD : Shape := ⟨2, ![256, 16]⟩

/-- 1 when the sample `a` lies within half a width `d` of the bin centre `l`, else 0: the comparison bit read unsigned. -/
def inBin (a l d : Ideal .f32) : Ideal .f32 :=
  FloatOps.uitofp (F := Ideal) .f32
    (FloatOps.cmpf (F := Ideal) (φ := .f32) .olt (FloatOps.absf (FloatOps.subf a l))
      (FloatOps.mulf d (FloatOps.ofBits .f32 0x3F000000#32)))

/-- One bit widened with zeros to 32 bits and read as a signed integer is the bit read unsigned. -/
theorem widen_signed (b : BitVec 1) :
    FloatOps.sitofp (F := Ideal) .f32 (b.setWidth 32) = FloatOps.uitofp (F := Ideal) .f32 b := by
  by_cases h : b = 1#1
  · subst h
    show (((BitVec.setWidth 32 1#1).toInt : ℝ) : EReal) = (((1#1 : BitVec 1).toNat : ℝ) : EReal)
    norm_num
  · obtain rfl := eq_zero_of_ne_one h
    show (((BitVec.setWidth 32 0#1).toInt : ℝ) : EReal) = (((0#1 : BitVec 1).toNat : ℝ) : EReal)
    norm_num

/-- How many of the 1024 samples of channel (t, c) fall in bin k (from the zero the sum starts at). -/
def binCount (x : SX.Idx → Ideal .f32) (loc : SL.Idx → Ideal .f32) (δ : SD.Idx → Ideal .f32)
    (t : Fin 256) (c : Fin 16) (k : Fin 64) : Ideal .f32 :=
  Ideal.ofBits .f32 0x00000000#32 + ∑ b : Fin 1024, inBin (x (ix3 b t c)) (loc (ix3 t c k)) (δ (ix2 t c))

/-- The distance of bin k's estimated density, count / 1024 / delta, from the given density. -/
def binGap (x : SX.Idx → Ideal .f32) (loc : SL.Idx → Ideal .f32) (δ : SD.Idx → Ideal .f32) (dens : SL.Idx → Ideal .f32)
    (t : Fin 256) (c : Fin 16) (k : Fin 64) : Ideal .f32 :=
  FloatOps.absf (F := Ideal) (φ := .f32)
    (Ideal.div (Ideal.div (binCount x loc δ t c k) (Ideal.ofBits .f32 0x44800000#32)) (δ (ix2 t c)) - dens (ix3 t c k))

/-- Channel (t, c)'s loss: the mean over the 64 bins of the gaps. -/
def channelLoss (x : SX.Idx → Ideal .f32) (loc : SL.Idx → Ideal .f32) (δ : SD.Idx → Ideal .f32) (dens : SL.Idx → Ideal .f32)
    (t : Fin 256) (c : Fin 16) : Ideal .f32 :=
  Ideal.div (∑ k : Fin 64, binGap x loc δ dens t c k) (Ideal.ofBits .f32 0x42800000#32)

/-- The losses of all channels as an array. -/
def lossArray (x : SX.Idx → Ideal .f32) (loc : SL.Idx → Ideal .f32) (δ : SD.Idx → Ideal .f32) (dens : SL.Idx → Ideal .f32) :
    SD.Idx → Ideal .f32 := fun i => channelLoss x loc δ dens (i 0) (i 1)

/-- A sum over 1024 samples is the sum over eight runs of 128 of each run's sum. -/
theorem sum_by_runs {M : Type*} [AddCommMonoid M] (f : Fin 1024 → M) :
    ∑ s : Fin 8, ∑ e : Fin 128, f ⟨128 * s.val + e.val, by have := s.isLt; have := e.isLt; omega⟩ = ∑ b : Fin 1024, f b := by
  rw [← Equiv.sum_comp (finProdFinEquiv : Fin 8 × Fin 128 ≃ Fin 1024) f, Fintype.sum_prod_type]
  refine Finset.sum_congr rfl fun s _ => Finset.sum_congr rfl fun e _ => congrArg f (Fin.ext ?_)
  show 128 * s.val + e.val = e.val + 128 * s.val
  omega

end Cert.BinLoss

end
-- ==== Proof.RefLoss.lean ====
/-
  The reference computes the channel losses of the specification.

  Read one element at a time, the reference's array of shape [256, 16] just before its final means is, at (t, c), the
  mean over the bins k of | (0 + sum over b of the in-bin indicator) / 1024 / delta[t, c] - densities[t, c, k] |:
  each broadcast reads its operand at the coordinates it keeps, each sum runs over the one axis it reduces.
-/
import proofs.«158296_j76802605187293_1_alg».proof.Proof.Gen.ReferenceIdeal.Read
import proofs.«158296_j76802605187293_1_alg».proof.Proof.BinLoss

noncomputable section

namespace Cert.ReferenceIdeal.RefLoss

open Cert.ReferenceIdeal Cert.ReferenceIdeal.Read Cert.BinLoss Idealize.ShloMosaic Idealize.ShloMosaic.ValueIdx

variable (x0 : (⟨S1024x256x16, .f32⟩ : BufTy).Contents (Elt Ideal)) (x1 : (⟨S256x16x64, .f32⟩ : BufTy).Contents (Elt Ideal))
  (x2 : (⟨S256x16, .f32⟩ : BufTy).Contents (Elt Ideal)) (x3 : (⟨S256x16x64, .f32⟩ : BufTy).Contents (Elt Ideal))

/-- The indicator the reference sums, at sample b of channel (t, c) and bin k. -/
theorem hit_eq (t : Fin 256) (c : Fin 16) (k : Fin 64) (b : Fin 1024) :
    val_main_v11 (F := Ideal) x0 x1 x2 (idx_main_v12 (ix3 t c k) b)
      = inBin (x0 (ix3 b t c)) (x1 (ix3 t c k)) (x2 (ix2 t c)) := by
  have e0 : idx_main_v0 (idx_main_v2 (idx_main_v12 (ix3 t c k) b)) = ix3 b t c :=
    funext fun a => by match a with | ⟨0, _⟩ => rfl | ⟨1, _⟩ => rfl | ⟨2, _⟩ => rfl
  have e1 : idx_main_v1 (idx_main_v3 (idx_main_v12 (ix3 t c k) b)) = ix3 t c k :=
    funext fun a => by match a with | ⟨0, _⟩ => rfl | ⟨1, _⟩ => rfl | ⟨2, _⟩ => rfl
  have e2 : idx_main_v6 (idx_main_v9 (idx_main_v12 (ix3 t c k) b)) = ix2 t c :=
    funext fun a => by match a with | ⟨0, _⟩ => rfl | ⟨1, _⟩ => rfl
  rw [val_main_v11_apply, val_main_v10_apply, val_main_v5_apply, val_main_v4_apply, val_main_v2_apply, val_main_v0_apply,
    val_main_v3_apply, val_main_v1_apply, val_main_v9_apply, val_main_v8_apply, val_main_v6_apply, val_main_v7_apply,
    val_main_cst_apply, e0, e1, e2]
  rfl

/-- The reference's count for channel (t, c) and bin k. -/
theorem count_eq (t : Fin 256) (c : Fin 16) (k : Fin 64) :
    val_main_v12 (F := Ideal) x0 x1 x2 (ix3 t c k) = binCount x0 x1 x2 t c k := by
  rw [val_main_v12_apply]
  unfold binCount
  exact congrArg (_ + ·) (Finset.sum_congr rfl fun b _ => hit_eq x0 x1 x2 t c k b)

/-- The reference's gap for channel (t, c) and bin k. -/
theorem gap_eq (t : Fin 256) (c : Fin 16) (k : Fin 64) :
    val_main_v19 (F := Ideal) x0 x1 x2 x3 (idx_main_v20 (ix2 t c) k) = binGap x0 x1 x2 x3 t c k := by
  have e : idx_main_v20 (ix2 t c) k = ix3 t c k :=
    funext fun a => by match a with | ⟨0, _⟩ => rfl | ⟨1, _⟩ => rfl | ⟨2, _⟩ => rfl
  have e2 : idx_main_v15 (idx_main_v16 (ix3 t c k)) = ix2 t c :=
    funext fun a => by match a with | ⟨0, _⟩ => rfl | ⟨1, _⟩ => rfl
  rw [e, val_main_v19_apply, val_main_v18_apply, val_main_v17_apply, val_main_v14_apply, count_eq, val_main_v13_apply,
    val_main_cst_1_apply, val_main_v16_apply, val_main_v15_apply, e2]
  rfl

/-- The reference's array of channel losses is the specification's. -/
theorem loss_eq : val_main_v22 (F := Ideal) x0 x1 x2 x3 = lossArray x0 x1 x2 x3 := by
  funext i
  obtain ⟨t, c, rfl⟩ : ∃ (t : Fin 256) (c : Fin 16), i = ix2 t c := ⟨i 0, i 1, eq_ix2 i⟩
  rw [val_main_v22_apply, val_main_v20_apply, val_main_v21_apply, val_main_cst_3_apply, val_main_cst_2_apply]
  show Ideal.div (Ideal.ofBits .f32 0x00000000#32 + _) _ = channelLoss x0 x1 x2 x3 t c
  rw [Ideal.ofBits_zero_f32, zero_add]
  unfold channelLoss
  exact congrArg (Ideal.div · _) (Finset.sum_congr rfl fun k _ => gap_eq x0 x1 x2 x3 t c k)

end Cert.ReferenceIdeal.RefLoss

end
-- ==== Proof.Pieces.lean ====
/-
  What one grid point leaves behind, as values.

  The body keeps a running count per (row, channel, bin) in a scratch block. At the first of the eight points of a row
  tile it stores zeros, reads them back and adds the point's counts; at the others it adds the point's counts to what
  the point before left. At the last point it also divides the finished counts by 1024 and by the widths, takes the
  distance to the given densities and stores the mean over the bins as the output block. Each buffer is stored whole,
  so what it holds afterwards is the stored value itself.
-/
import proofs.«158296_j76802605187293_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A middle point adds its counts to the carried scratch. -/
theorem scratch_B (c : Dev nD) (i : grid0.Coords) (arg2 : Memref sig .tc .vmem S128x8x16 .f32) (harg2 : arg2.IsWhole) (arg3 : Memref sig .tc .vmem S8x16x64 .f32) (harg3 : arg3.IsWhole) (arg4 : Memref sig .tc .vmem S8x16 .f32) (harg4 : arg4.IsWhole) (arg5 : Memref sig .tc .vmem S8x16x64 .f32) (harg5 : arg5.IsWhole) (arg6 : Memref sig .tc .vmem S8x16 .f32) (harg6 : arg6.IsWhole) (arg7 : Memref sig .tc .vmem S8x16x64 .f32) (harg7 : arg7.IsWhole) (hc0 : ¬cond0_0 i) (hc1 : ¬cond0_1 i)
    (x0 : Vec F S128x8x16 .f32) (x1 : Vec F S8x16x64 .f32) (x2 : Vec F S8x16 .f32) (x3 : Vec F S8x16x64 .f32) (xs0 : Vec F S8x16x64 .f32) :
    sout0_B_0 c i arg2 harg2 arg3 harg3 arg4 harg4 arg5 harg5 arg6 harg6 arg7 harg7 hc0 hc1 x0 x1 x2 x3 xs0 = k0_pay2 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz3]
  simp only [View.readAt_eq_ld, harg2.read_unread, harg3.read_unread, harg4.read_unread, harg5.read_unread, harg7.read_unread, View.ld_unit_zero (S := S128x8x16) hz3, View.ld_unit_zero (S := S8x16x64) hz3, View.ld_unit_zero (S := S8x16) hz2]

/-- A first point adds its counts to the zero block it has just stored. -/
theorem scratch_A (c : Dev nD) (i : grid0.Coords) (arg2 : Memref sig .tc .vmem S128x8x16 .f32) (harg2 : arg2.IsWhole) (arg3 : Memref sig .tc .vmem S8x16x64 .f32) (harg3 : arg3.IsWhole) (arg4 : Memref sig .tc .vmem S8x16 .f32) (harg4 : arg4.IsWhole) (arg5 : Memref sig .tc .vmem S8x16x64 .f32) (harg5 : arg5.IsWhole) (arg6 : Memref sig .tc .vmem S8x16 .f32) (harg6 : arg6.IsWhole) (arg7 : Memref sig .tc .vmem S8x16x64 .f32) (harg7 : arg7.IsWhole) (hc0 : cond0_0 i) (hc1 : ¬cond0_1 i)
    (x0 : Vec F S128x8x16 .f32) (x1 : Vec F S8x16x64 .f32) (x2 : Vec F S8x16 .f32) (x3 : Vec F S8x16x64 .f32) :
    sout0_A_0 c i arg2 harg2 arg3 harg3 arg4 harg4 arg5 harg5 arg6 harg6 arg7 harg7 hc0 hc1 x0 x1 x2 x3 = k0_pay2 x0 x1 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S8x16x64) hz3, View.readCov_unit_zero (S := S8x16x64) _ hz3]
  simp only [View.readAt_eq_ld, harg2.read_unread, harg3.read_unread, harg4.read_unread, harg5.read_unread, harg7.read_unread, View.ld_unit_zero (S := S128x8x16) hz3, View.ld_unit_zero (S := S8x16x64) hz3, View.ld_unit_zero (S := S8x16) hz2]

/-- A last point adds its counts to the carried scratch too, -/
theorem scratch_C (c : Dev nD) (i : grid0.Coords) (arg2 : Memref sig .tc .vmem S128x8x16 .f32) (harg2 : arg2.IsWhole) (arg3 : Memref sig .tc .vmem S8x16x64 .f32) (harg3 : arg3.IsWhole) (arg4 : Memref sig .tc .vmem S8x16 .f32) (harg4 : arg4.IsWhole) (arg5 : Memref sig .tc .vmem S8x16x64 .f32) (harg5 : arg5.IsWhole) (arg6 : Memref sig .tc .vmem S8x16 .f32) (harg6 : arg6.IsWhole) (arg7 : Memref sig .tc .vmem S8x16x64 .f32) (harg7 : arg7.IsWhole) (hc0 : ¬cond0_0 i) (hc1 : cond0_1 i)
    (x0 : Vec F S128x8x16 .f32) (x1 : Vec F S8x16x64 .f32) (x2 : Vec F S8x16 .f32) (x3 : Vec F S8x16x64 .f32) (xs0 : Vec F S8x16x64 .f32) :
    sout0_C_0 c i arg2 harg2 arg3 harg3 arg4 harg4 arg5 harg5 arg6 harg6 arg7 harg7 hc0 hc1 x0 x1 x2 x3 xs0 = k0_pay2 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread, harg7.read_unread, View.ld_unit_zero (S := S128x8x16) hz3, View.ld_unit_zero (S := S8x16x64) hz3, View.ld_unit_zero (S := S8x16) hz2]

/-- and stores the bins' mean gap computed from the finished counts. -/
theorem out_C (c : Dev nD) (i : grid0.Coords) (arg2 : Memref sig .tc .vmem S128x8x16 .f32) (harg2 : arg2.IsWhole) (arg3 : Memref sig .tc .vmem S8x16x64 .f32) (harg3 : arg3.IsWhole) (arg4 : Memref sig .tc .vmem S8x16 .f32) (harg4 : arg4.IsWhole) (arg5 : Memref sig .tc .vmem S8x16x64 .f32) (harg5 : arg5.IsWhole) (arg6 : Memref sig .tc .vmem S8x16 .f32) (harg6 : arg6.IsWhole) (arg7 : Memref sig .tc .vmem S8x16x64 .f32) (harg7 : arg7.IsWhole) (hc0 : ¬cond0_0 i) (hc1 : cond0_1 i)
    (x0 : Vec F S128x8x16 .f32) (x1 : Vec F S8x16x64 .f32) (x2 : Vec F S8x16 .f32) (x3 : Vec F S8x16x64 .f32) (xs0 : Vec F S8x16x64 .f32) :
    out0_C_4 c i arg2 harg2 arg3 harg3 arg4 harg4 arg5 harg5 arg6 harg6 arg7 harg7 hc0 hc1 x0 x1 x2 x3 xs0 = k0_pay3 x2 (k0_pay2 x0 x1 x2 xs0) x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readCov_unit_zero (S := S8x16x64) _ hz3, View.readAt_eq_ld, harg2.read_unread, harg3.read_unread, harg4.read_unread, harg5.read_unread, harg7.read_unread, View.ld_unit_zero (S := S128x8x16) hz3, View.ld_unit_zero (S := S8x16x64) hz3, View.ld_unit_zero (S := S8x16) hz2]

end Cert.KernelIdeal.Pieces

end
-- ==== Proof.Payloads.lean ====
/-
  The body's two computed values, one element at a time at the ideal values.

  The scratch update: at (r, c, k) the new count is the old one plus the number of the point's 128 samples x0[e, r, c]
  that fall in bin k of channel (r, c) — the samples are spread along a new last axis, the bin centres along a new first
  axis, the half widths along both, and the comparison's bit, widened and read signed, is 0 or 1.
  The output: at (r, c) the mean over the 64 bins of | count / 1024 / width - density |, the width spread along the bins.
-/
import proofs.«158296_j76802605187293_1_alg».proof.Proof.Gen.KernelIdeal.Skeleton
import proofs.«158296_j76802605187293_1_alg».proof.Proof.BinLoss
import Idealize.ShloMosaic.Lib.Pipeline.Value

noncomputable section

namespace Cert.KernelIdeal.Payloads

open Cert.KernelIdeal Cert.KernelIdeal.Gen Cert.BinLoss Idealize.ShloMosaic Idealize.ShloMosaic.ValueIdx

variable {α : Type}

/-- Samples [128, 8, 16] given a unit last axis and repeated along the 64 bins: at (e, r, c, k), the sample (e, r, c). -/
theorem along_bins (v : S128x8x16.Idx → α) (h₁ : S128x8x16.ShapeCasts S128x8x16x1) (h₂ : S128x8x16x1.Broadcasts S128x8x16x64)
    (e : Fin 128) (r : Fin 8) (c : Fin 16) (k : Fin 64) :
    broadcastTo S128x8x16x64 (shapeCast S128x8x16x1 v h₁) h₂ (ix4 e r c k) = v (ix3 e r c) := by
  refine (broadcastTo_apply _ h₂ (ix4 e r c k) (ix4 e r c (0 : Fin 1)) fun a => ?_).trans (shapeCast_apply v h₁ _ _ ?_)
  · match a with
    | ⟨0, _⟩ => show e.val = if (128 : ℕ) = 1 then 0 else e.val; rw [if_neg (by decide)]
    | ⟨1, _⟩ => show r.val = if (8 : ℕ) = 1 then 0 else r.val; rw [if_neg (by decide)]
    | ⟨2, _⟩ => show c.val = if (16 : ℕ) = 1 then 0 else c.val; rw [if_neg (by decide)]
    | ⟨3, _⟩ => show 0 = if (1 : ℕ) = 1 then 0 else k.val; rw [if_pos rfl]
  · rw [Shape.rowMajor_val_three, Shape.rowMajor_val_four]
    show (e.val * 8 + r.val) * 16 + c.val = ((e.val * 8 + r.val) * 16 + c.val) * 1 + 0
    omega

/-- Bin centres [8, 16, 64] given a unit first axis and repeated along the 128 samples: at (e, r, c, k), the centre (r, c, k). -/
theorem along_samples (v : S8x16x64.Idx → α) (h₁ : S8x16x64.ShapeCasts S1x8x16x64) (h₂ : S1x8x16x64.Broadcasts S128x8x16x64)
    (e : Fin 128) (r : Fin 8) (c : Fin 16) (k : Fin 64) :
    broadcastTo S128x8x16x64 (shapeCast S1x8x16x64 v h₁) h₂ (ix4 e r c k) = v (ix3 r c k) := by
  refine (broadcastTo_apply _ h₂ (ix4 e r c k) (ix4 (0 : Fin 1) r c k) fun a => ?_).trans (shapeCast_apply v h₁ _ _ ?_)
  · match a with
    | ⟨0, _⟩ => show 0 = if (1 : ℕ) = 1 then 0 else e.val; rw [if_pos rfl]
    | ⟨1, _⟩ => show r.val = if (8 : ℕ) = 1 then 0 else r.val; rw [if_neg (by decide)]
    | ⟨2, _⟩ => show c.val = if (16 : ℕ) = 1 then 0 else c.val; rw [if_neg (by decide)]
    | ⟨3, _⟩ => show k.val = if (64 : ℕ) = 1 then 0 else k.val; rw [if_neg (by decide)]
  · rw [Shape.rowMajor_val_three, Shape.rowMajor_val_four]
    show (r.val * 16 + c.val) * 64 + k.val = (((0 * 8 + r.val) * 16 + c.val) * 64 + k.val)
    omega

/-- Half widths [8, 16] given unit first and last axes and repeated along samples and bins: at (e, r, c, k), the one of (r, c). -/
theorem along_both (v : S8x16.Idx → α) (h₁ : S8x16.ShapeCasts S1x8x16x1) (h₂ : S1x8x16x1.Broadcasts S128x8x16x64)
    (e : Fin 128) (r : Fin 8) (c : Fin 16) (k : Fin 64) :
    broadcastTo S128x8x16x64 (shapeCast S1x8x16x1 v h₁) h₂ (ix4 e r c k) = v (ix2 r c) := by
  refine (broadcastTo_apply _ h₂ (ix4 e r c k) (ix4 (0 : Fin 1) r c (0 : Fin 1)) fun a => ?_).trans (shapeCast_apply v h₁ _ _ ?_)
  · match a with
    | ⟨0, _⟩ => show 0 = if (1 : ℕ) = 1 then 0 else e.val; rw [if_pos rfl]
    | ⟨1, _⟩ => show r.val = if (8 : ℕ) = 1 then 0 else r.val; rw [if_neg (by decide)]
    | ⟨2, _⟩ => show c.val = if (16 : ℕ) = 1 then 0 else c.val; rw [if_neg (by decide)]
    | ⟨3, _⟩ => show 0 = if (1 : ℕ) = 1 then 0 else k.val; rw [if_pos rfl]
  · rw [Shape.rowMajor_val_two, Shape.rowMajor_val_four]
    show r.val * 16 + c.val = (((0 * 8 + r.val) * 16 + c.val) * 1 + 0)
    omega

/-- Widths [8, 16] given a unit last axis and repeated along the 64 bins: at (r, c, k), the width of (r, c). -/
theorem width_along_bins (v : S8x16.Idx → α) (h₁ : S8x16.ShapeCasts S8x16x1) (h₂ : S8x16x1.Broadcasts S8x16x64)
    (r : Fin 8) (c : Fin 16) (k : Fin 64) :
    broadcastTo S8x16x64 (shapeCast S8x16x1 v h₁) h₂ (ix3 r c k) = v (ix2 r c) := by
  refine (broadcastTo_apply _ h₂ (ix3 r c k) (ix3 r c (0 : Fin 1)) fun a => ?_).trans (shapeCast_apply v h₁ _ _ ?_)
  · match a with
    | ⟨0, _⟩ => show r.val = if (8 : ℕ) = 1 then 0 else r.val; rw [if_neg (by decide)]
    | ⟨1, _⟩ => show c.val = if (16 : ℕ) = 1 then 0 else c.val; rw [if_neg (by decide)]
    | ⟨2, _⟩ => show 0 = if (1 : ℕ) = 1 then 0 else k.val; rw [if_pos rfl]
  · rw [Shape.rowMajor_val_two, Shape.rowMajor_val_three]
    show r.val * 16 + c.val = ((r.val * 16 + c.val) * 1 + 0)
    omega

/-- The scratch update at (r, c, k): the old count plus how many of the point's 128 samples fall in the bin. -/
theorem accumulate_apply (x0 : Vec Ideal S128x8x16 .f32) (x1 : Vec Ideal S8x16x64 .f32) (x2 : Vec Ideal S8x16 .f32)
    (acc : Vec Ideal S8x16x64 .f32) (r : Fin 8) (c : Fin 16) (k : Fin 64) :
    k0_pay2 (F := Ideal) x0 x1 x2 acc (ix3 r c k)
      = acc (ix3 r c k) + ∑ e : Fin 128, inBin (x0 (ix3 e r c)) (x1 (ix3 r c k)) (x2 (ix2 r c)) := by
  unfold k0_pay2
  dsimp only
  refine (congrFun (shapeCast_self _ _) _).trans ?_
  refine congrArg (acc (ix3 r c k) + ·) ?_
  refine (Ideal.multiReduction_add_single _ _ reduces_S128x8x16x64_S8x16x64 (.inl rfl) rfl (ix3 r c k)).trans ?_
  refine Finset.sum_congr rfl fun (e : Fin 128) _ => ?_
  have hJ : reduces_S128x8x16x64_S8x16x64.lift (ix3 r c k) e = ix4 e r c k :=
    funext fun a => Fin.ext (by match a with | ⟨0, _⟩ => rfl | ⟨1, _⟩ => rfl | ⟨2, _⟩ => rfl | ⟨3, _⟩ => rfl)
  rw [hJ]
  refine (widen_signed _).trans ?_
  unfold inBin
  refine congrArg (FloatOps.uitofp (F := Ideal) .f32) ?_
  show FloatOps.cmpf (F := Ideal) .olt (FloatOps.absf (FloatOps.subf (broadcastTo S128x8x16x64 (shapeCast S128x8x16x1 x0 _) _ (ix4 e r c k))
      (broadcastTo S128x8x16x64 (shapeCast S1x8x16x64 x1 _) _ (ix4 e r c k))))
      (broadcastTo S128x8x16x64 (shapeCast S1x8x16x1 (mulf x2 (broadcast S8x16 (Scalar.ofBits .f32 0x3F000000#32))) _) _ (ix4 e r c k)) = _
  rw [along_bins, along_samples, along_both]
  rfl

/-- The output at (r, c): the mean over the bins of the gap between count / 1024 / width and the density. -/
theorem meanGap_apply (x2 : Vec Ideal S8x16 .f32) (acc : Vec Ideal S8x16x64 .f32) (x3 : Vec Ideal S8x16x64 .f32)
    (r : Fin 8) (c : Fin 16) :
    k0_pay3 (F := Ideal) x2 acc x3 (ix2 r c)
      = Ideal.div (∑ k : Fin 64, FloatOps.absf (F := Ideal) (φ := .f32)
          (Ideal.div (Ideal.div (acc (ix3 r c k)) (Ideal.ofBits .f32 0x44800000#32)) (x2 (ix2 r c)) - x3 (ix3 r c k)))
        (Ideal.ofBits .f32 0x42800000#32) := by
  unfold k0_pay3
  dsimp only
  refine congrArg (Ideal.div · (Ideal.ofBits .f32 0x42800000#32)) ?_
  refine (Ideal.multiReduction_add_single _ _ reduces_S8x16x64_S8x16 (.inl rfl) rfl (ix2 r c)).trans ?_
  refine Finset.sum_congr rfl fun (k : Fin 64) _ => ?_
  have hJ : reduces_S8x16x64_S8x16.lift (ix2 r c) k = ix3 r c k :=
    funext fun a => Fin.ext (by match a with | ⟨0, _⟩ => rfl | ⟨1, _⟩ => rfl | ⟨2, _⟩ => rfl)
  rw [hJ]
  show FloatOps.absf (F := Ideal) (φ := .f32) (Ideal.div (Ideal.div (acc (ix3 r c k)) (Ideal.ofBits .f32 0x44800000#32))
      (broadcastTo S8x16x64 (shapeCast S8x16x1 x2 _) _ (ix3 r c k)) - x3 (ix3 r c k)) = _
  rw [width_along_bins]

end Cert.KernelIdeal.Payloads

end
-- ==== Proof.Blocks.lean ====
/-
  Where each grid point's input blocks sit in the argument arrays.

  The 256 points run row tile by row tile: point t works on rows 8 (t / 8) … 8 (t / 8) + 7 and on the samples
  128 (t % 8) … 128 (t % 8) + 127. Its block of samples is [128, 8, 16] at block index (t % 8, t / 8, 0); its blocks of
  bin centres and densities are [8, 16, 64] at (t / 8, 0, 0); its block of widths is [8, 16] at (t / 8, 0). An element
  of a block is the array's element at block index × block size + the coordinate inside the block.
-/
import proofs.«158296_j76802605187293_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The four argument arrays as the region finds them, and a point's four input blocks, at their literal types. -/
abbrev samples (c : Dev nD) : Vec F S1024x256x16 .f32 := V m c main_arg0
abbrev centres (c : Dev nD) : Vec F S256x16x64 .f32 := V m c main_arg1
abbrev widths (c : Dev nD) : Vec F S256x16 .f32 := V m c main_arg2
abbrev densities (c : Dev nD) : Vec F S256x16x64 .f32 := V m c main_arg3
abbrev sampleBlk (c : Dev nD) (t : Fin cfg0.N) : Vec F S128x8x16 .f32 := iblk m c 0 t
abbrev centreBlk (c : Dev nD) (t : Fin cfg0.N) : Vec F S8x16x64 .f32 := iblk m c 1 t
abbrev widthBlk (c : Dev nD) (t : Fin cfg0.N) : Vec F S8x16 .f32 := iblk m c 2 t
abbrev densityBlk (c : Dev nD) (t : Fin cfg0.N) : Vec F S8x16x64 .f32 := iblk m c 3 t

theorem lt256 (t : Fin cfg0.N) : t.val < 256 := lt_of_lt_of_eq t.isLt (show cfg0.N = 256 from N_0)

/-- Row r of point t's row tile, as a row of the arrays. -/
def rowOf (t : Fin cfg0.N) (r : Fin 8) : Fin 256 := ⟨8 * (t.val / 8) + r.val, by have := lt256 t; have := r.isLt; omega⟩
/-- Sample e of point t's run of samples, as a sample of the array. -/
def sampleOf (t : Fin cfg0.N) (e : Fin 128) : Fin 1024 := ⟨128 * (t.val % 8) + e.val, by have := e.isLt; omega⟩

/-- The block indices, decided once over the grid. -/
theorem index0 : ∀ t : Fin cfg0.N, win0_0.index t (0 : Fin 3) = t.val % 8 ∧ win0_0.index t (1 : Fin 3) = t.val / 8 ∧ win0_0.index t (2 : Fin 3) = 0 :=
  (by decide +kernel : ∀ t : Fin grid0.N, _)
theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem index2 : ∀ t : Fin cfg0.N, win0_2.index t (0 : Fin 2) = t.val / 8 ∧ win0_2.index t (1 : Fin 2) = 0 :=
  (by decide +kernel : ∀ t : Fin grid0.N, _)
theorem index3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem index4 : ∀ t : Fin cfg0.N, win0_4.index t (0 : Fin 2) = t.val / 8 ∧ win0_4.index t (1 : Fin 2) = 0 :=
  (by decide +kernel : ∀ t : Fin grid0.N, _)

theorem sampleBlk_apply (c : Dev nD) (t : Fin cfg0.N) (e : Fin 128) (r : Fin 8) (cc : Fin 16) :
    sampleBlk m c t (ix3 e r cc) = samples m c (ix3 (sampleOf t e) (rowOf t r) cc) := by
  obtain ⟨h0, h1, h2⟩ := index0 t
  show iblk m c 0 t (ix3 e r cc) = _
  unfold iblk
  rw [View.read_apply]
  show V m c main_arg0 _ = V m c main_arg0 _
  congr 1
  funext a
  apply Fin.ext
  match a with
  | ⟨0, _⟩ => show win0_0.index t 0 * 128 + 1 * e.val = 128 * (t.val % 8) + e.val; rw [h0]; omega
  | ⟨1, _⟩ => show win0_0.index t 1 * 8 + 1 * r.val = 8 * (t.val / 8) + r.val; rw [h1]; omega
  | ⟨2, _⟩ => show win0_0.index t 2 * 16 + 1 * cc.val = cc.val; rw [h2]; omega

theorem centreBlk_apply (c : Dev nD) (t : Fin cfg0.N) (r : Fin 8) (cc : Fin 16) (k : Fin 64) :
    centreBlk m c t (ix3 r cc k) = centres m c (ix3 (rowOf t r) cc k) := by
  obtain ⟨h0, h1, h2⟩ := index1 t
  show iblk m c 1 t (ix3 r cc k) = _
  unfold iblk
  rw [View.read_apply]
  show V m c main_arg1 _ = V m c main_arg1 _
  congr 1
  funext a
  apply Fin.ext
  match a with
  | ⟨0, _⟩ => show win0_1.index t 0 * 8 + 1 * r.val = 8 * (t.val / 8) + r.val; rw [h0]; omega
  | ⟨1, _⟩ => show win0_1.index t 1 * 16 + 1 * cc.val = cc.val; rw [h1]; omega
  | ⟨2, _⟩ => show win0_1.index t 2 * 64 + 1 * k.val = k.val; rw [h2]; omega

theorem widthBlk_apply (c : Dev nD) (t : Fin cfg0.N) (r : Fin 8) (cc : Fin 16) :
    widthBlk m c t (ix2 r cc) = widths m c (ix2 (rowOf t r) cc) := by
  obtain ⟨h0, h1⟩ := index2 t
  show iblk m c 2 t (ix2 r cc) = _
  unfold iblk
  rw [View.read_apply]
  show V m c main_arg2 _ = V m c main_arg2 _
  congr 1
  funext a
  apply Fin.ext
  match a with
  | ⟨0, _⟩ => show win0_2.index t 0 * 8 + 1 * r.val = 8 * (t.val / 8) + r.val; rw [h0]; omega
  | ⟨1, _⟩ => show win0_2.index t 1 * 16 + 1 * cc.val = cc.val; rw [h1]; omega

theorem densityBlk_apply (c : Dev nD) (t : Fin cfg0.N) (r : Fin 8) (cc : Fin 16) (k : Fin 64) :
    densityBlk m c t (ix3 r cc k) = densities m c (ix3 (rowOf t r) cc k) := by
  obtain ⟨h0, h1, h2⟩ := index3 t
  show iblk m c 3 t (ix3 r cc k) = _
  unfold iblk
  rw [View.read_apply]
  show V m c main_arg3 _ = V m c main_arg3 _
  congr 1
  funext a
  apply Fin.ext
  match a with
  | ⟨0, _⟩ => show win0_3.index t 0 * 8 + 1 * r.val = 8 * (t.val / 8) + r.val; rw [h0]; omega
  | ⟨1, _⟩ => show win0_3.index t 1 * 16 + 1 * cc.val = cc.val; rw [h1]; omega
  | ⟨2, _⟩ => show win0_3.index t 2 * 64 + 1 * k.val = k.val; rw [h2]; omega

end Cert.KernelIdeal.Blocks

end
-- ==== Proof.Fold.lean ====
/-
  The running count across the eight points of a row tile, and what the last point writes.

  The scratch after a point is: at the first point of a row tile, zero plus that point's counts; afterwards, what the
  point before left plus this point's counts. So after the last point it holds, per (row, channel, bin), zero plus the
  eight points' counts, and since the eight points run through the 1024 samples in runs of 128, that is the count
  over all samples. The block the last point stores is then the channel losses of its eight rows.
-/
import proofs.«158296_j76802605187293_1_alg».proof.Proof.Pieces
import proofs.«158296_j76802605187293_1_alg».proof.Proof.Payloads
import proofs.«158296_j76802605187293_1_alg».proof.Proof.Blocks

noncomputable section

open Idealize.ShloMosaic Idealize.ShloMosaic.TcCoe Idealize.SL.Sem

namespace Cert.KernelIdeal.Fold

open Cert.KernelIdeal Cert.KernelIdeal.Gen Cert.KernelIdeal.Blocks Cert.KernelIdeal.Pieces Cert.KernelIdeal.Payloads
open Cert.BinLoss Idealize.ShloMosaic.ValueIdx

variable (m : (ℓ : Loc nD τ sig) → Buf (Elt Ideal) ℓ)

/-- The scratch after point n. -/
abbrev scratchAt (c : Dev nD) (n : ℕ) (h : n < cfg0.N) : Vec Ideal S8x16x64 .f32 := (outsAt0 m c n h).2

/-- One point's update of the scratch. -/
def step (c : Dev nD) (n : ℕ) (h : n < cfg0.N) (acc : Vec Ideal S8x16x64 .f32) : Vec Ideal S8x16x64 .f32 :=
  k0_pay2 (F := Ideal) (sampleBlk m c ⟨n, h⟩) (centreBlk m c ⟨n, h⟩) (widthBlk m c ⟨n, h⟩) acc

/-- At the first point of a row tile the scratch is the update of the zero block. -/
theorem scratch_first (c : Dev nD) (n : ℕ) (h : n < cfg0.N) (h0 : n % 8 = 0) :
    scratchAt m c n h = step m c n h (k0_pay1 (F := Ideal)) := by
  have h1 : ¬n % 8 = 7 := by omega
  show (outsAt0 m c (⟨n, h⟩ : Fin cfg0.N).val (⟨n, h⟩ : Fin cfg0.N).isLt).2 = _
  rw [outsAt0_A m c ⟨n, h⟩ h0 h1]
  dsimp only
  exact scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (ms0_3 ⟨n, h⟩) (hs0_3 ⟨n, h⟩) (ms0_4 ⟨n, h⟩) (hs0_4 ⟨n, h⟩) scM0_0 (Memref.isWhole_whole _) ((hcond0_0 ⟨n, h⟩).mpr h0)
    (fun hh => h1 ((hcond0_1 ⟨n, h⟩).mp hh)) (iblk m c 0 ⟨n, h⟩) (iblk m c 1 ⟨n, h⟩) (iblk m c 2 ⟨n, h⟩) (iblk m c 3 ⟨n, h⟩)

/-- At every other point it is the update of what the point before left. -/
theorem scratch_step (c : Dev nD) (n : ℕ) (h : n + 1 < cfg0.N) (h0 : ¬(n + 1) % 8 = 0) :
    scratchAt m c (n + 1) h = step m c (n + 1) h (scratchAt m c n (Nat.lt_of_succ_lt h)) := by
  show (outsAt0 m c (⟨n + 1, h⟩ : Fin cfg0.N).val (⟨n + 1, h⟩ : Fin cfg0.N).isLt).2 = _
  by_cases h1 : (n + 1) % 8 = 7
  · rw [outsAt0_C m c ⟨n + 1, h⟩ h0 h1]
    dsimp only
    exact scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh))
      ((hcond0_1 ⟨n + 1, h⟩).mpr h1) (iblk m c 0 ⟨n + 1, h⟩) (iblk m c 1 ⟨n + 1, h⟩) (iblk m c 2 ⟨n + 1, h⟩) (iblk m c 3 ⟨n + 1, h⟩)
      (outsAt0 m c n (Nat.lt_of_succ_lt h)).2
  · rw [outsAt0_B m c ⟨n + 1, h⟩ h0 h1]
    dsimp only
    exact scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh))
      (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩)
      (outsAt0 m c n (Nat.lt_of_succ_lt h)).2

/-- So at any point it is the fold of the updates from the first point of its row tile. -/
theorem scratch_fold (c : Dev nD) (t : ℕ) (ht : t < cfg0.N) (h' : 8 * (t / 8) + t % 8 < cfg0.N) :
    scratchAt m c t ht = Pipeline.accAt (fun n h => step m c n h (k0_pay1 (F := Ideal))) (step m c) (8 * (t / 8)) (t % 8) h' :=
  Pipeline.eq_accAt_of_mod (scratchAt m c) 8 _ _ (scratch_first m c) (scratch_step m c) (by decide) t ht h'

/-- How many of point n's 128 samples fall in bin k of row r, channel cc of its tile (zero past the grid). -/
def pointCount (c : Dev nD) (n : ℕ) (r : Fin 8) (cc : Fin 16) (k : Fin 64) : Ideal .f32 :=
  if h : n < cfg0.N then
    ∑ e : Fin 128, inBin (sampleBlk m c ⟨n, h⟩ (ix3 e r cc)) (centreBlk m c ⟨n, h⟩ (ix3 r cc k)) (widthBlk m c ⟨n, h⟩ (ix2 r cc))
  else 0

/-- The same over an index of the scratch. -/
def pointCountAt (c : Dev nD) (n : ℕ) : S8x16x64.Idx → EReal := fun i =>
  pointCount m c n ⟨(i 0).val, (i 0).isLt⟩ ⟨(i 1).val, (i 1).isLt⟩ ⟨(i 2).val, (i 2).isLt⟩

theorem step_apply (c : Dev nD) (n : ℕ) (h : n < cfg0.N) (acc : Vec Ideal S8x16x64 .f32) (i : S8x16x64.Idx) :
    step m c n h acc i = acc i + pointCountAt m c n i := by
  obtain ⟨r, cc, k, rfl⟩ : ∃ (r : Fin 8) (cc : Fin 16) (k : Fin 64), i = ix3 r cc k := ⟨i 0, i 1, i 2, eq_ix3 i⟩
  show _ = acc (ix3 r cc k) + pointCount m c n r cc k
  unfold step pointCount
  rw [dif_pos h]
  exact accumulate_apply _ _ _ _ r cc k

theorem zero_apply (i : S8x16x64.Idx) : k0_pay1 (F := Ideal) i = Ideal.ofBits .f32 0x00000000#32 := by
  unfold k0_pay1
  exact congrFun (shapeCast_self _ _) i

/-- After the last point of a row tile the scratch holds the counts over all 1024 samples. -/
theorem scratch_last (c : Dev nD) (t : Fin cfg0.N) (h7 : t.val % 8 = 7) (r : Fin 8) (cc : Fin 16) (k : Fin 64) :
    scratchAt m c t.val t.isLt (ix3 r cc k) = binCount (samples m c) (centres m c) (widths m c) (rowOf t r) cc k := by
  have hN := lt256 t
  have hcN : cfg0.N = 256 := N_0
  have h' : 8 * (t.val / 8) + t.val % 8 < cfg0.N := by rw [Nat.div_add_mod]; exact t.isLt
  rw [scratch_fold m c t.val t.isLt h']
  have hu := Pipeline.accAt_add_apply (N := cfg0.N) (β := EReal) (fun n h => step m c n h (k0_pay1 (F := Ideal))) (step m c)
    (fun _ => Ideal.ofBits .f32 0x00000000#32) (pointCountAt m c) (8 * (t.val / 8)) 7
    (fun h i => by rw [step_apply, zero_apply]) (fun n h acc i _ _ => step_apply m c n h acc i)
    (t.val % 8) (by omega) h' (ix3 r cc k)
  refine hu.trans ?_
  unfold binCount
  refine congrArg (Ideal.ofBits .f32 0x00000000#32 + ·) ?_
  rw [h7, Finset.sum_range, ← sum_by_runs]
  refine Finset.sum_congr rfl fun (s : Fin 8) _ => ?_
  have hs := s.isLt
  have hlt : 8 * (t.val / 8) + s.val < cfg0.N := lt_of_lt_of_eq (by omega : 8 * (t.val / 8) + s.val < 256) hcN.symm
  show pointCount m c (8 * (t.val / 8) + s.val) r cc k = _
  unfold pointCount
  rw [dif_pos hlt]
  refine Finset.sum_congr rfl fun (e : Fin 128) _ => ?_
  rw [sampleBlk_apply, centreBlk_apply, widthBlk_apply]
  have hr : rowOf (⟨8 * (t.val / 8) + s.val, hlt⟩ : Fin cfg0.N) r = rowOf t r := Fin.ext (by
    show 8 * ((8 * (t.val / 8) + s.val) / 8) + r.val = 8 * (t.val / 8) + r.val; omega)
  have he : sampleOf (⟨8 * (t.val / 8) + s.val, hlt⟩ : Fin cfg0.N) e = ⟨128 * s.val + e.val, by have := e.isLt; omega⟩ := Fin.ext (by
    show 128 * ((8 * (t.val / 8) + s.val) % 8) + e.val = 128 * s.val + e.val; omega)
  rw [hr, he]

/-- The block the last point of a row tile stores: the channel losses of its eight rows. -/
theorem out_last (c : Dev nD) (t : Fin cfg0.N) (h7 : t.val % 8 = 7) (r : Fin 8) (cc : Fin 16) :
    (outsAt0 m c t.val t.isLt).1 (ix2 r cc)
      = channelLoss (samples m c) (centres m c) (widths m c) (densities m c) (rowOf t r) cc := by
  have h0 : ¬t.val % 8 = 0 := by omega
  have e2 : scratchAt m c t.val t.isLt = k0_pay2 (F := Ideal) (sampleBlk m c t) (centreBlk m c t) (widthBlk m c t)
      (outsAt0 m c (t.val - 1) (Nat.lt_of_le_of_lt (Nat.sub_le _ _) t.isLt)).2 := by
    show (outsAt0 m c t.val t.isLt).2 = _
    rw [outsAt0_C m c t h0 h7]
    dsimp only
    exact scratch_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) (fun hh => h0 ((hcond0_0 t).mp hh))
      ((hcond0_1 t).mpr h7) (iblk m c 0 t) (iblk m c 1 t) (iblk m c 2 t) (iblk m c 3 t)
      (outsAt0 m c (t.val - 1) (Nat.lt_of_le_of_lt (Nat.sub_le _ _) t.isLt)).2
  have e1 : (outsAt0 m c t.val t.isLt).1 = k0_pay3 (F := Ideal) (widthBlk m c t)
      (k0_pay2 (F := Ideal) (sampleBlk m c t) (centreBlk m c t) (widthBlk m c t)
        (outsAt0 m c (t.val - 1) (Nat.lt_of_le_of_lt (Nat.sub_le _ _) t.isLt)).2) (densityBlk m c t) := by
    rw [outsAt0_C m c t h0 h7]
    dsimp only
    exact out_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) (fun hh => h0 ((hcond0_0 t).mp hh))
      ((hcond0_1 t).mpr h7) (iblk m c 0 t) (iblk m c 1 t) (iblk m c 2 t) (iblk m c 3 t)
      (outsAt0 m c (t.val - 1) (Nat.lt_of_le_of_lt (Nat.sub_le _ _) t.isLt)).2
  rw [e1, ← e2, meanGap_apply]
  unfold channelLoss
  refine congrArg (Ideal.div · (Ideal.ofBits .f32 0x42800000#32)) (Finset.sum_congr rfl fun (k : Fin 64) _ => ?_)
  unfold binGap
  rw [scratch_last m c t h7, widthBlk_apply, densityBlk_apply]

end Cert.KernelIdeal.Fold

end
-- ==== Proof.Final.lean ====
/-
  The kernel's result.

  The last point of each row tile writes its [8, 16] block back at block index (t / 8, 0) of the [256, 16] output; the
  32 such points tile the output, and each block is the channel losses of its rows, so the whole output array is the
  array of channel losses. The host lines after the call take its mean over the rows, then over the channels, and
  multiply by one; the program's result is that function of the losses.
-/
import proofs.«158296_j76802605187293_1_alg».proof.Proof.Fold
import Idealize.ShloMosaic.Lib.StableHlo.Run

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Blocks Cert.KernelIdeal.Fold
open Cert.BinLoss Idealize.ShloMosaic.ValueIdx

variable (m : (ℓ : Loc nD τ sig) → Buf (Elt Ideal) ℓ) (ρ : Dev nD → PrngReg)

/-- The channel losses of the argument arrays as the region finds them. -/
abbrev lossOf (c : Dev nD) : Vec Ideal S256x16 .f32 :=
  lossArray (samples m c) (centres m c) (widths m c) (densities m c)

/-- The mean over the 256 rows, then over the 16 channels, times one: the host lines after the call. -/
def hostMeans (v : Vec Ideal S256x16 .f32) : Vec Ideal S_ .f32 :=
  mulf (constant (F := Ideal) S_ .f32 0x3F800000#32)
    (Host.divf
      (Host.reduceAdd
        (Host.divf (Host.reduceAdd v (constant (F := Ideal) S_ .f32 0x00000000#32) reducesTo_S256x16_S16_d0 h_S_)
          (broadcastInDim S16 ![] bcast_S_S16 (constant (F := Ideal) S_ .f32 0x43800000#32)))
        (constant (F := Ideal) S_ .f32 0x00000000#32) reducesTo_S16_S_d0 h_S_)
      (constant (F := Ideal) S_ .f32 0x41800000#32))

/-- The stored block of a last point, at any index of the block. -/
theorem out_block (c : Dev nD) (t : Fin cfg0.N) (h7 : t.val % 8 = 7) (j : S8x16.Idx) :
    (outsAt0 m c t.val t.isLt).1 j
      = lossOf m c (ix2 (rowOf t ⟨(j 0).val, (j 0).isLt⟩) (⟨(j 1).val, (j 1).isLt⟩ : Fin 16)) := by
  obtain ⟨r, cc, rfl⟩ : ∃ (r : Fin 8) (cc : Fin 16), j = ix2 r cc := ⟨j 0, j 1, eq_ix2 j⟩
  exact out_last m c t h7 r cc

/-- What a last point writes back is its block of the channel losses. -/
theorem flushed_eq (c : Dev nD) (t : Fin cfg0.N) (hf : (cfg0.win 4).flush t = true) :
    (dats m 0 c).flushed 4 t = ((cfg0.win 4).blk t).view.read (Elt Ideal) (lossOf m c) := by
  have h7 : t.val % 8 = 7 := (flush0_4 t).mp hf
  obtain ⟨i0, i1⟩ := index4 t
  show (cfg0.win 4).cut (grid0.coords t) ((dats m 0 c).after 4 t) = _
  rw [after0_4]
  funext j
  refine (out_block m c t h7 j).trans ?_
  show lossOf m c _ = lossOf m c (((cfg0.win 4).blk t).view.emb j)
  congr 1
  funext a
  apply Fin.ext
  match a with
  | ⟨0, _⟩ => show 8 * (t.val / 8) + (j 0).val = win0_4.index t (0 : Fin 2) * 8 + 1 * (j 0).val; rw [i0]; omega
  | ⟨1, _⟩ => show (j 1).val = win0_4.index t (1 : Fin 2) * 16 + 1 * (j 1).val; rw [i1]; omega

/-- An index of the output is in point t's block iff each coordinate is in the block's range. -/
theorem mem_blk (t : Fin cfg0.N) (i : S256x16.Idx) :
    i ∈ ((cfg0.win 4).blk t).view.set ↔ ∀ a : Fin 2, win0_4.index t a * S8x16.size a ≤ (i a).val ∧ (i a).val < win0_4.index t a * S8x16.size a + S8x16.size a := by
  show i ∈ ((View.whole main_v0).slice (win0_4.rect t)).set ↔ _
  rw [View.set_slice_whole, Rect.mem_set_unit]
  exact Iff.rfl

/-- Row T of the output is written by the last point of its row tile. -/
theorem covered (i : S256x16.Idx) : ∃ t : Fin cfg0.N, (cfg0.win 4).flush t = true ∧ i ∈ ((cfg0.win 4).blk t).view.set := by
  have hi0 : (i 0).val < 256 := (i 0).isLt
  have hi1 : (i 1).val < 16 := (i 1).isLt
  have hcN : cfg0.N = 256 := N_0
  let t : Fin cfg0.N := ⟨8 * ((i 0).val / 8) + 7, lt_of_lt_of_eq (by omega : 8 * ((i 0).val / 8) + 7 < 256) hcN.symm⟩
  have ht : t.val = 8 * ((i 0).val / 8) + 7 := rfl
  obtain ⟨e0, e1⟩ := index4 t
  refine ⟨t, (flush0_4 t).mpr (by rw [ht]; omega), ?_⟩
  rw [mem_blk]
  intro a
  match a with
  | ⟨0, _⟩ => show win0_4.index t (0 : Fin 2) * 8 ≤ (i 0).val ∧ (i 0).val < win0_4.index t (0 : Fin 2) * 8 + 8; rw [e0, ht]; omega
  | ⟨1, _⟩ => show win0_4.index t (1 : Fin 2) * 16 ≤ (i 1).val ∧ (i 1).val < win0_4.index t (1 : Fin 2) * 16 + 16; rw [e1]; omega

/-- So the output array ends holding the channel losses. -/
theorem final (c : Dev nD) : (dats m 0 c).arrAt 4 cfg0.N = lossOf m c :=
  (dats m 0 c).arrAt_eq_of_cover 4 (lossOf m c) (fun t hf => flushed_eq m c t hf) (covered)

/-- The program's result after the host lines: the means of the channel losses. -/
theorem tail_eq (c : Dev nD) :
    Pipeline.afterTail₀ cfgs (dats m) 0 (V0 m) [hostOps1] c main_v6 = hostMeans (lossOf m c) := by
  unfold Pipeline.afterTail₀
  show StableHlo.after hostOps1 _ (Proc.devRef .tc main_v6) = _
  after_results
  rw [(Pipeline.withArrays_arr spec0 launch0.win.arr_inj c _ _ 4).trans (final m c)]
  rfl

/-- The run, read: the result at the means of the channel losses, the arguments unchanged. -/
theorem run : θ_run defs (onTc (τ := τ) (main (F := Ideal))) ⟨m, fun _ => 0, ρ⟩ fun r => ∀ c : Dev nD,
      r.2.mem ((c.tc : Thread nD τ).loc main_v6) = hostMeans (lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Final

end
-- ==== Proof.lean ====
/-
  The histogram-density loss: a kernel that streams the samples against a plain array reference.

  Both programs compute, for each of the 256 x 16 channels (t, c) and each of its 64 bins k, how many of the 1024
  samples x[b, t, c] lie within half a width delta[t, c] of the bin centre loc[t, c, k]; divide that count by 1024 and by
  the width; take the distance to densities[t, c, k]; average over the bins, then over the rows t, then over the channels
  c, and multiply by one.

  The reference sums the 1024 indicators at once. The kernel walks a grid of 32 row tiles x 8 runs of 128 samples: a
  scratch block of counts is zeroed at the first run of a tile, each run adds its 128 indicators, and after the eighth
  run the tile's [8, 16] block of bin-averaged distances is written out; the means over rows and channels are host
  lines after the call. Over the extended reals addition is commutative and associative, so the eight partial sums
  added in order are the one sum over all samples (no finiteness of the inputs is used), and the indicator — the
  comparison's bit, read unsigned by the reference and widened to 32 bits then read signed by the kernel — is the same
  number 0 or 1. Everything after the count is the same chain of operations on both sides.

  The three programs run without fault and leave their arguments unchanged (the kernel's frames are the generated
  ones; the reference's is its generated run), and the idealized kernel is the printed kernel read at the ideal values
  with nothing rewritten.
-/
import proofs.«158296_j76802605187293_1_alg».proof.Defs
import proofs.«158296_j76802605187293_1_alg».proof.Proof.Gen.Kernel
import proofs.«158296_j76802605187293_1_alg».proof.Proof.Gen.Kernel.Frame
import proofs.«158296_j76802605187293_1_alg».proof.Proof.Gen.KernelIdeal
import proofs.«158296_j76802605187293_1_alg».proof.Proof.Gen.KernelIdeal.Frame
import proofs.«158296_j76802605187293_1_alg».proof.Proof.Gen.ReferenceIdeal
import proofs.«158296_j76802605187293_1_alg».proof.Proof.Gen.ReferenceIdeal.Run
import proofs.«158296_j76802605187293_1_alg».proof.Proof.Gen.Pre_finite_inputs
import proofs.«158296_j76802605187293_1_alg».proof.Proof.RefLoss
import proofs.«158296_j76802605187293_1_alg».proof.Proof.Final
import Idealize.ShloMosaic.Adequacy
import Idealize.ShloMosaic.Init

noncomputable section

namespace Cert.Proof

open Idealize.ShloMosaic Idealize.ShloMosaic.TcCoe Idealize.SL.Sem

/-- The reference's result is the means over rows and channels of the specification's channel losses: its last seven
    operations are those means, applied to the array the bins were averaged into. -/
theorem reference_result (x0 : (⟨Cert.ReferenceIdeal.S1024x256x16, .f32⟩ : BufTy).Contents (Elt Ideal))
    (x1 : (⟨Cert.ReferenceIdeal.S256x16x64, .f32⟩ : BufTy).Contents (Elt Ideal))
    (x2 : (⟨Cert.ReferenceIdeal.S256x16, .f32⟩ : BufTy).Contents (Elt Ideal))
    (x3 : (⟨Cert.ReferenceIdeal.S256x16x64, .f32⟩ : BufTy).Contents (Elt Ideal)) :
    Cert.ReferenceIdeal.Read.val_main_v28 (F := Ideal) x0 x1 x2 x3
      = Cert.KernelIdeal.Final.hostMeans (Cert.BinLoss.lossArray x0 x1 x2 x3) := by
  rw [← Cert.ReferenceIdeal.RefLoss.loss_eq]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Run from arguments that agree, the kernel ends at the means of the channel losses of its arguments and the reference
    at the means of the channel losses of its own: the same extended real. -/
theorem algebraic : Cert.algebraic_KernelIdeal_ReferenceIdeal := by
  intro m ρ m' ρ' _ hagree
  refine ⟨fun c => Cert.KernelIdeal.Final.hostMeans (Cert.KernelIdeal.Final.lossOf m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, reference_result, (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
